-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x40 : Shape := ⟨2, ![32, 40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x40 : S_.BroadcastsInDim S32x40 (![] : Fin 0 → Fin S32x40.rank)
  reducesTo_S32x40_S_d0_1 : S32x40.ReducesTo [0, 1] S_

variable [Facts]

def fn_part2 {F : FTy → Type} [FloatOps F] (main_arg8 : FVec F S32x40 .f32) (main_v33 : IVec S_ 1) : IVec S_ 1 :=
  let main_v34 : FVec F S32x40 .f32 := Host.absf main_arg8
  let main_cst_12 : FVec F S_ .f32 := constant S_ .f32 0x7F800000#32
  let main_v35 : FVec F S32x40 .f32 := broadcastInDim S32x40 ![] bcast_S_S32x40 main_cst_12
  let main_v36 : IVec S32x40 1 := cmpf .olt main_v34 main_v35
  let main_c_13 : IVec S_ 1 := constantI S_ 1 1#1
  let main_v37 : IVec S_ 1 := (fun x v => Host.reduce IntOp.andi x v reducesTo_S32x40_S_d0_1 h_S_) main_v36 main_c_13
  let main_v38 : IVec S_ 1 := andi main_v33 main_v37
  main_v38

def fn_part1 {F : FTy → Type} [FloatOps F] (main_arg5 : FVec F S32x32 .f32) (main_arg6 : FVec F S32 .f32) (main_arg7 : FVec F S32x32 .f32) (main_arg8 : FVec F S32x40 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S64x32 .f32) (main_arg3 : FVec F S32 .f32) (main_arg4 : FVec F S64x32 .f32) (main_arg5 : FVec F S32x32 .f32) (main_arg6 : FVec F S32 .f32) (main_arg7 : FVec F S32x32 .f32) (main_arg8 : FVec F S32x40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x40 : Shape := ⟨2, ![32, 40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x32 : Shape := ⟨2, ![1, 32]⟩
abbrev S100000x32 : Shape := ⟨2, ![100000, 32]⟩
abbrev S5000x64 : Shape := ⟨2, ![5000, 64]⟩
abbrev S5000x32 : Shape := ⟨2, ![5000, 32]⟩
abbrev S1600000x32 : Shape := ⟨2, ![1600000, 32]⟩
abbrev S100000x40 : Shape := ⟨2, ![100000, 40]⟩
abbrev S5000x40 : Shape := ⟨2, ![5000, 40]⟩

abbrev nBuf : Space → Nat
  | .hbm => 61
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S64x32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32x40, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S1x32, .f32⟩
  | .hbm, ⟨42, _⟩ => ⟨S100000x32, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x32, .f32⟩
  | .hbm, ⟨52, _⟩ => ⟨S_, .f32⟩
  | .hbm, ⟨53, _⟩ => ⟨S100000x32, .f32⟩
  | .hbm, ⟨54, _⟩ => ⟨S1600000x1, .i32⟩
  | .hbm, ⟨55, _⟩ => ⟨S100000x32, .f32⟩
  | .hbm, ⟨56, _⟩ => ⟨S100000x1, .f32⟩
  | .hbm, ⟨57, _⟩ => ⟨S100000x32, .f32⟩
  | .hbm, ⟨58, _⟩ => ⟨S100000x32, .f32⟩
  | .hbm, ⟨59, _⟩ => ⟨S1x32, .f32⟩
  | .hbm, ⟨60, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x32, .f32⟩
  | .local _ .vmem, ⟨5, _⟩ => ⟨S1x32, .f32⟩
  | .local _ .vmem, ⟨6, _⟩ => ⟨S64x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x32, .f32⟩
  | .local _ .vmem, ⟨14, _⟩ => ⟨S1x32, .f32⟩
  | .local _ .vmem, ⟨15, _⟩ => ⟨S32x32, .f32⟩
  | .local _ .vmem, ⟨16, _⟩ => ⟨S32x40, .f32⟩
  | .local _ .vmem, ⟨17, _⟩ => ⟨S5000x40, .f32⟩
  | .local _ .vmem, ⟨18, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  inb_S32x40_S32x40_0_0 : ∀ a, (![0, 0] : Fin 2 → Nat) a + S32x40.size a ≤ S32x40.size a
  h_S32x40 : 0 < S32x40.numel
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x40_S5000x40_1_0_0_1_n_n_wf : DotDims.WF S5000x32 S32x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x40.size a ≤ S32x40.size a
  hwx1_5 : ∀ i : grid1.Coords, EltTy.bits .f32 = 32 ∨ (Rect.block (s := S32x40) S32x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S100000x40.size a
  hwx1_6 : ∀ i : grid1.Coords, EltTy.bits .f32 = 32 ∨ (Rect.block (s := S100000x40) S5000x40.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x40_S5000x40_1_0_0_1_n_n : DotDims S5000x32 S32x40 S5000x40 where
  lhsContracting := [1]
  rhsContracting := [0]
  lhsNonContracting := [0]
  rhsNonContracting := [1]
  lhsBatch := []
  rhsBatch := []
  wf := dot_S5000x32_S32x40_S5000x40_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x40 : Shape := ⟨2, ![32, 40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S100000x40 : Shape := ⟨2, ![100000, 40]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S64x32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32x40, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x32, .f32⟩
  | .hbm, ⟨42, _⟩ => ⟨S1x32, .f32⟩
  | .hbm, ⟨43, _⟩ => ⟨S100000x32, .f32⟩
  | .hbm, ⟨44, _⟩ => ⟨S100000x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S100000x32, .f32⟩
  | .hbm, ⟨49, _⟩ => ⟨S100000x32, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x32, .f32⟩
  | .hbm, ⟨59, _⟩ => ⟨S_, .f32⟩
  | .hbm, ⟨60, _⟩ => ⟨S100000x32, .f32⟩
  | .hbm, ⟨61, _⟩ => ⟨S1600000x1, .i32⟩
  | .hbm, ⟨62, _⟩ => ⟨S100000x32, .f32⟩
  | .hbm, ⟨63, _⟩ => ⟨S100000x1, .f32⟩
  | .hbm, ⟨64, _⟩ => ⟨S100000x32, .f32⟩
  | .hbm, ⟨65, _⟩ => ⟨S100000x32, .f32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S_, .f32⟩
  | .hbm, ⟨73, _⟩ => ⟨S100000x32, .f32⟩
  | .hbm, ⟨74, _⟩ => ⟨S100000x32, .f32⟩
  | .hbm, ⟨75, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x40_S100000x40_1_0_0_1_n_n_wf : DotDims.WF S100000x32 S32x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf

class Facts : Prop extends Facts₀ where

variable [Facts]
-- ==== Proof.Spec.lean ====
/-
  One GraphSAGE layer as a function of its arrays, entry by entry, on the extended reals.

  For a node `r` and an output feature `c` the layer's entry is
      max ((Σ_k A[r,k]·Wl[k,c] + Σ_k H[r,k]·Wr[k,c]) + B[0,c]) 0
  where `A` is the mean of the neighbours' features, `H` the node's own features, `Wl`, `Wr` the two weight
  matrices and `B` the bias laid out as one row. The extents `N` (nodes), `K` (input features), `C` (output
  features) are parameters, so that the same function describes one block of rows and the whole array.
  The last layer is followed by a product with a matrix `W` (`head`).

  The only algebra needed to compare two spellings of the layer is that addition of extended reals is commutative
  and associative: adding the bias before or after the second product gives the same entry. No finiteness of
  the data enters.
-/
import Idealize.ShloMosaic.PureOps.Ideal
import Idealize.ShloMosaic.Lib.ValueIdx

noncomputable section

open scoped BigOperators

namespace Cert.Sage

open Idealize.ShloMosaic Idealize.ShloMosaic.ValueIdx

variable {N N' K C D : Nat}

/-- Entry `(r, c)` of one layer: both products summed over the input features, then the bias row, then the
    positive part. -/
def denseAt (A H : (⟨2, ![N, K]⟩ : Shape).Idx → EReal) (Wl Wr : (⟨2, ![K, C]⟩ : Shape).Idx → EReal)
    (B : (⟨2, ![1, C]⟩ : Shape).Idx → EReal) (r : Fin N) (c : Fin C) : EReal :=
  max ((∑ k : Fin K, A (ix2 r k) * Wl (ix2 k c) + ∑ k : Fin K, H (ix2 r k) * Wr (ix2 k c)) + B (ix2 0 c)) 0

/-- The layer's whole output array. -/
def dense (A H : (⟨2, ![N, K]⟩ : Shape).Idx → EReal) (Wl Wr : (⟨2, ![K, C]⟩ : Shape).Idx → EReal)
    (B : (⟨2, ![1, C]⟩ : Shape).Idx → EReal) : (⟨2, ![N, C]⟩ : Shape).Idx → EReal :=
  fun i => denseAt A H Wl Wr B (i 0) (i 1)

/-- The last layer followed by the output projection: entry `(r, d)` is `Σ_j layer[r,j]·W[j,d]`. -/
def head (A H : (⟨2, ![N, K]⟩ : Shape).Idx → EReal) (Wl Wr : (⟨2, ![K, C]⟩ : Shape).Idx → EReal)
    (B : (⟨2, ![1, C]⟩ : Shape).Idx → EReal) (W : (⟨2, ![C, D]⟩ : Shape).Idx → EReal) :
    (⟨2, ![N, D]⟩ : Shape).Idx → EReal :=
  fun i => ∑ j : Fin C, denseAt A H Wl Wr B (i 0) j * W (ix2 j (i 1))

/-- An entry of the layer depends on its arrays only through row `r` of `A` and `H`, column `c` of the two
    weight matrices and entry `c` of the bias row: arrays that agree there (possibly arrays of another number of
    rows, read at another row `r'`) give the same entry. This is how a block of rows is compared with the whole array. -/
theorem denseAt_congr {A H : (⟨2, ![N, K]⟩ : Shape).Idx → EReal} {A' H' : (⟨2, ![N', K]⟩ : Shape).Idx → EReal}
    {Wl Wr Wl' Wr' : (⟨2, ![K, C]⟩ : Shape).Idx → EReal} {B B' : (⟨2, ![1, C]⟩ : Shape).Idx → EReal}
    {r : Fin N} {r' : Fin N'} {c : Fin C}
    (hA : ∀ k, A (ix2 r k) = A' (ix2 r' k)) (hH : ∀ k, H (ix2 r k) = H' (ix2 r' k))
    (hWl : ∀ k, Wl (ix2 k c) = Wl' (ix2 k c)) (hWr : ∀ k, Wr (ix2 k c) = Wr' (ix2 k c))
    (hB : B (ix2 0 c) = B' (ix2 0 c)) :
    denseAt A H Wl Wr B r c = denseAt A' H' Wl' Wr' B' r' c := by
  unfold denseAt
  simp only [hA, hH, hWl, hWr, hB]

/-- The same for the projected layer: additionally the projection matrices agree on column `d`. -/
theorem head_entry_congr {A H : (⟨2, ![N, K]⟩ : Shape).Idx → EReal} {A' H' : (⟨2, ![N', K]⟩ : Shape).Idx → EReal}
    {Wl Wr Wl' Wr' : (⟨2, ![K, C]⟩ : Shape).Idx → EReal} {B B' : (⟨2, ![1, C]⟩ : Shape).Idx → EReal}
    {W W' : (⟨2, ![C, D]⟩ : Shape).Idx → EReal} {r : Fin N} {r' : Fin N'} {d : Fin D}
    (hA : ∀ k, A (ix2 r k) = A' (ix2 r' k)) (hH : ∀ k, H (ix2 r k) = H' (ix2 r' k))
    (hWl : ∀ k c, Wl (ix2 k c) = Wl' (ix2 k c)) (hWr : ∀ k c, Wr (ix2 k c) = Wr' (ix2 k c))
    (hB : ∀ c, B (ix2 0 c) = B' (ix2 0 c)) (hW : ∀ j, W (ix2 j d) = W' (ix2 j d)) :
    (∑ j : Fin C, denseAt A H Wl Wr B r j * W (ix2 j d)) = ∑ j : Fin C, denseAt A' H' Wl' Wr' B' r' j * W' (ix2 j d) :=
  Finset.sum_congr rfl fun j _ => by
    rw [denseAt_congr hA hH (fun k => hWl k j) (fun k => hWr k j) (hB j), hW j]

/-- Adding the bias before the second product instead of after it gives the same entry: addition on the
    extended reals is commutative and associative. -/
theorem denseAt_bias_first (A H : (⟨2, ![N, K]⟩ : Shape).Idx → EReal) (Wl Wr : (⟨2, ![K, C]⟩ : Shape).Idx → EReal)
    (B : (⟨2, ![1, C]⟩ : Shape).Idx → EReal) (r : Fin N) (c : Fin C) :
    max ((∑ k : Fin K, A (ix2 r k) * Wl (ix2 k c) + B (ix2 0 c)) + ∑ k : Fin K, H (ix2 r k) * Wr (ix2 k c)) 0
      = denseAt A H Wl Wr B r c := by
  unfold denseAt
  rw [add_right_comm]

end Cert.Sage

end
-- ==== Proof.Region0Value.lean ====
/-
  The first layer's output array, after its twenty grid points, is the layer of the arrays the region was entered with.

  The region works on blocks of 5000 rows. On one block the body computes, entry by entry,
      max ((Σ_k A[p,k]·Wl[k,q] + Σ_k H[p,k]·Wr[k,q]) + B[0,q]) 0,
  which is the layer's entry function at 5000 rows: on the extended reals the changes of number format are the identity
  and each product accumulated from zero is the plain sum over the 64 input features. An entry of the layer reads only
  row `p` of the two feature blocks, and row `p` of the block at grid point `t` is row `5000·t + p` of the array, while
  the weights and the bias row are the same at every point; so what point `t` writes back is rows `5000·t … 5000·t + 4999`
  of the layer of the whole arrays. The twenty blocks of rows cover all 100000 rows (row `r` is in block `r / 5000`), so
  the array ends holding the layer everywhere.
-/
import proofs.«124305_j45423574122804_1_alg».proof.Proof.Gen.KernelIdeal.Frame
import proofs.«124305_j45423574122804_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue
open Idealize.ShloMosaic Idealize.ShloMosaic.TcCoe Idealize.SL.Sem Idealize.ShloMosaic.ValueIdx
open Cert.KernelIdeal Cert.KernelIdeal.Gen
open Idealize.ShloMosaic.Pipeline (Dat)

/-! ## One product of a block of rows with a weight matrix, entry by entry -/

/-- Along the rows' axis the left operand of the product is read at the output's row. -/
theorem lhs_rows64_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- Along the features' axis it is read at the summation index. -/
theorem lhs_rows64_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- The weight matrix is read at the summation index along its first axis … -/
theorem rhs_rows64_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
/-- … and at the output's column along its second. -/
theorem rhs_rows64_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Entry `(p, q)` of a [5000,64] block times a [64,32] matrix, accumulated from zero, is `Σ_k X[p,k]·W[k,q]`. -/
theorem rows64_mul_apply {φ₁ φ₂ : FTy} (X : FVec Ideal S5000x64 φ₁) (W : FVec Ideal S64x32 φ₂) (p : Fin 5000) (q : Fin 32) :
    matmul dot_S5000x64_S64x32_S5000x32_1_0_0_1_n_n none X W (constant (F := Ideal) S5000x32 .f32 0x00000000#32) (ix2 p q)
      = ∑ k : Fin 64, X (ix2 p k) * W (ix2 k q) := by
  simp only [matmul]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact lhs_rows64_0 _ _
    | ⟨1, _⟩ => exact (lhs_rows64_1 _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (rhs_rows64_0 _ _).trans hk
    | ⟨1, _⟩ => exact rhs_rows64_1 _ _)
  rw [el, er]

/-! ## The body's value on one block of rows is the layer on that block -/

/-- On a block of 5000 rows the body computes the layer of that block: the format changes are the identity on the
    extended reals, each product is a sum over the 64 input features, the bias row is repeated down the rows, and the
    positive part is the maximum with zero. -/
theorem body0_eq_dense (v0 v3 : Vec Ideal S5000x64 .f32) (v5 v7 : Vec Ideal S64x32 .f32) (v12 : Vec Ideal S1x32 .f32) :
    k0_pay1 (F := Ideal) v0 v3 v5 v7 v12 = Cert.Sage.dense v0 v3 v5 v7 v12 := by
  funext j
  obtain ⟨p, q, rfl⟩ : ∃ (p : Fin 5000) (q : Fin 32), j = ix2 p q := ⟨j 0, j 1, eq_ix2 j⟩
  unfold k0_pay1 Cert.Sage.dense Cert.Sage.denseAt
  simp only [shapeCast_self]
  rw [maximumf_apply, addf_apply, addf_apply, rows64_mul_apply, rows64_mul_apply, broadcastTo_1b_ab_apply, broadcast_apply]
  have hzero : (FloatOps.ofBits (F := Ideal) FTy.f32 0x00000000#32) = (0 : EReal) := Ideal.ofBits_zero_f32
  rw [hzero]
  rfl

/-! ## From the blocks of rows to the whole array -/

/-- The zero offsets of a whole-block access. -/
theorem zero_offsets : (![0, 0] : Fin 2 → Nat) = fun _ => 0 := funext fun a => by fin_cases a <;> rfl

/-- Where each window's block sits at grid point `t`: the two feature arrays and the output move down the rows with
    the point, 5000 rows at a time; the weight matrices and the bias row are taken whole at every point. -/
theorem block_positions0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What grid point `t` writes back is rows `5000·t … 5000·t + 4999` of the layer of the whole arrays: an entry of the
    layer reads one row of the two feature arrays, and row `p` of the block at `t` is row `5000·t + p` of the array. -/
theorem written_block0 (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (Cert.Sage.dense (V c main_v24) (V c main_arg0) (V c main_arg2) (V c main_arg4) (V c main_v25)) := by
  show (cfg0.win 5).cut (grid0.coords t) ((dat0 (F := Ideal) V c).after 5 t) = _
  rw [after0_5]
  unfold out0_5
  rw [View.canon_unit_zero zero_offsets]
  simp only [View.ld_unit_zero (S := S5000x64) zero_offsets, View.ld_unit_zero (S := S64x32) zero_offsets, View.ld_unit_zero (S := S1x32) zero_offsets]
  rw [body0_eq_dense]
  obtain ⟨e00, e01, e10, e11, e20, e21, e30, e31, e40, e41, e50, e51⟩ := block_positions0 t
  have ht : t.val < 20 := t.isLt
  funext j
  obtain ⟨p, q, rfl⟩ : ∃ (p : Fin 5000) (q : Fin 32), j = ix2 p q := ⟨j 0, j 1, eq_ix2 j⟩
  have hp : p.val < 5000 := p.isLt
  have hrow : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 32 + 1 * q.val = q.val; omega
  show Cert.Sage.dense (N := 5000) (iblk0 V c 0 t) (iblk0 V c 1 t) (iblk0 V c 2 t) (iblk0 V c 4 t) (iblk0 V c 3 t) (ix2 p q)
    = Cert.Sage.dense (N := 100000) (V c main_v24) (V c main_arg0) (V c main_arg2) (V c main_arg4) (V c main_v25) (((cfg0.win 5).blk t).view.emb (ix2 p q))
  rw [hrow]
  show Cert.Sage.denseAt (N := 5000) (iblk0 V c 0 t) (iblk0 V c 1 t) (iblk0 V c 2 t) (iblk0 V c 4 t) (iblk0 V c 3 t) p q
    = Cert.Sage.denseAt (N := 100000) (V c main_v24) (V c main_arg0) (V c main_arg2) (V c main_arg4) (V c main_v25) ⟨t.val * 5000 + p.val, by omega⟩ q
  refine Cert.Sage.denseAt_congr (fun k => ?_) (fun k => ?_) (fun k => ?_) (fun k => ?_) ?_
  · show V c main_v24 (((cfg0.win 0).blk t).view.emb (ix2 p k)) = V c main_v24 (ix2 (⟨t.val * 5000 + p.val, by omega⟩ : Fin 100000) k)
    refine congrArg (V c main_v24) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · show V c main_arg0 (((cfg0.win 1).blk t).view.emb (ix2 p k)) = V c main_arg0 (ix2 (⟨t.val * 5000 + p.val, by omega⟩ : Fin 100000) k)
    refine congrArg (V c main_arg0) (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  · show V c main_arg2 (((cfg0.win 2).blk t).view.emb (ix2 k q)) = V c main_arg2 (ix2 k q)
    refine congrArg (V c main_arg2) (funext fun a => Fin.ext ?_)
    match a with
    | ⟨0, _⟩ => show win0_2.index t (0 : Fin 2) * 64 + 1 * k.val = k.val; omega
    | ⟨1, _⟩ => show win0_2.index t (1 : Fin 2) * 32 + 1 * q.val = q.val; omega
  · show V c main_arg4 (((cfg0.win 4).blk t).view.emb (ix2 k q)) = V c main_arg4 (ix2 k q)
    refine congrArg (V c main_arg4) (funext fun a => Fin.ext ?_)
    match a with
    | ⟨0, _⟩ => show win0_4.index t (0 : Fin 2) * 64 + 1 * k.val = k.val; omega
    | ⟨1, _⟩ => show win0_4.index t (1 : Fin 2) * 32 + 1 * q.val = q.val; omega
  · show V c main_v25 (((cfg0.win 3).blk t).view.emb (ix2 (0 : Fin 1) q)) = V c main_v25 (ix2 (0 : Fin 1) q)
    refine congrArg (V c main_v25) (funext fun a => Fin.ext ?_)
    match a with
    | ⟨0, _⟩ => show win0_3.index t (0 : Fin 2) * 1 + 1 * 0 = 0; omega
    | ⟨1, _⟩ => show win0_3.index t (1 : Fin 2) * 32 + 1 * q.val = q.val; omega

/-- An entry of the output array lies in the block of point `t` exactly when each coordinate lies in the block's range. -/
theorem mem_block0 (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v26).slice (win0_5.rect t)).set ↔ _
  rw [View.set_slice_whole, Rect.mem_set_unit]
  exact Iff.rfl

/-- Every entry of the output array is written: row `r` lies in the block of point `r / 5000`. -/
theorem rows_covered0 (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ : ∃ t : Fin cfg0.N, t.val = (i 0).val / 5000 := ⟨⟨(i 0).val / 5000, by show _ < 20; omega⟩, rfl⟩
  obtain ⟨-, -, -, -, -, -, -, -, -, -, e50, e51⟩ := block_positions0 t
  refine ⟨t, flush0_5 t, ?_⟩
  rw [mem_block0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 32 ≤ (i 1).val ∧ (i 1).val < win0_5.index t (1 : Fin 2) * 32 + 32; omega

/-- After the twenty points the output array holds the layer of the arrays the region was entered with. -/
theorem arr0 (V : (c : Dev nD) → (b : Ref sig .tc) → Buf (Elt Ideal) ((c : Thread nD τ).loc b)) (c : Dev nD) :
    (dat0 (F := Ideal) V c).arrAt 5 cfg0.N
      = Cert.Sage.dense (V c main_v24) (V c main_arg0) (V c main_arg2) (V c main_arg4) (V c main_v25) :=
  (dat0 (F := Ideal) V c).arrAt_eq_of_cover 5 _ (fun t _ => written_block0 V c t) rows_covered0

end Cert.KernelIdeal.RegionValue

end
-- ==== Proof.Region1Value.lean ====
/-
  The last layer's output array, after its twenty grid points, is the projected layer of the arrays the region was
  entered with.

  The region works on blocks of 5000 rows. On one block the body computes, entry by entry,
      Σ_j max ((Σ_k A[p,k]·Wl[k,j] + Σ_k H[p,k]·Wr[k,j]) + B[0,j]) 0 · W[j,d],
  the layer's entry function at 5000 rows followed by the output projection: on the extended reals the changes of number
  format are the identity and each product accumulated from zero is the plain sum over its 32 summation indices. An
  entry reads only row `p` of the two feature blocks, and row `p` of the block at grid point `t` is row `5000·t + p` of
  the array, while the two weight matrices, the bias row and the projection are the same at every point; so what
  point `t` writes back is rows `5000·t … 5000·t + 4999` of the projected layer of the whole arrays. The twenty blocks of
  rows cover all 100000 rows (row `r` is in block `r / 5000`), so the array ends holding the projected layer everywhere.
-/
import proofs.«124305_j45423574122804_1_alg».proof.Proof.Gen.KernelIdeal.Frame
import proofs.«124305_j45423574122804_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue
open Idealize.ShloMosaic Idealize.ShloMosaic.TcCoe Idealize.SL.Sem Idealize.ShloMosaic.ValueIdx
open Cert.KernelIdeal Cert.KernelIdeal.Gen
open Idealize.ShloMosaic.Pipeline (Dat)

/-! ## A block of rows times a [32,32] weight matrix, entry by entry -/

/-- Along the rows' axis the left operand is read at the output's row. -/
theorem lhs_rows32_0 (i : S5000x32.Idx) (s : dot_S5000x32_S32x32_S5000x32_1_0_0_1_n_n.contr.Idx) :
    (dot_S5000x32_S32x32_S5000x32_1_0_0_1_n_n.lhsIdx i s 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
/-- Along the features' axis it is read at the summation index. -/
theorem lhs_rows32_1 (i : S5000x32.Idx) (s : dot_S5000x32_S32x32_S5000x32_1_0_0_1_n_n.contr.Idx) :
    (dot_S5000x32_S32x32_S5000x32_1_0_0_1_n_n.lhsIdx i s 1).val = (s ⟨0, by decide⟩).val :=
  dot_S5000x32_S32x32_S5000x32_1_0_0_1_n_n.lhsIdx_val_of_single rfl i s
/-- The weight matrix is read at the summation index along its first axis … -/
theorem rhs_rows32_0 (i : S5000x32.Idx) (s : dot_S5000x32_S32x32_S5000x32_1_0_0_1_n_n.contr.Idx) :
    (dot_S5000x32_S32x32_S5000x32_1_0_0_1_n_n.rhsIdx i s 0).val = (s ⟨0, by decide⟩).val :=
  dot_S5000x32_S32x32_S5000x32_1_0_0_1_n_n.rhsIdx_val_of_single rfl i s
/-- … and at the output's column along its second. -/
theorem rhs_rows32_1 (i : S5000x32.Idx) (s : dot_S5000x32_S32x32_S5000x32_1_0_0_1_n_n.contr.Idx) :
    (dot_S5000x32_S32x32_S5000x32_1_0_0_1_n_n.rhsIdx i s 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- Entry `(p, q)` of a [5000,32] block times a [32,32] matrix, accumulated from zero, is `Σ_k X[p,k]·W[k,q]`. -/
theorem rows32_mul_apply {φ₁ φ₂ : FTy} (X : FVec Ideal S5000x32 φ₁) (W : FVec Ideal S32x32 φ₂) (p : Fin 5000) (q : Fin 32) :
    matmul dot_S5000x32_S32x32_S5000x32_1_0_0_1_n_n none X W (constant (F := Ideal) S5000x32 .f32 0x00000000#32) (ix2 p q)
      = ∑ k : Fin 32, X (ix2 p k) * W (ix2 k q) := by
  simp only [matmul]
  rw [Ideal.matmul_constant_zero_apply, ← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ix2 p q) ((ValueIdx.contrEquiv1 dot_S5000x32_S32x32_S5000x32_1_0_0_1_n_n 32 rfl rfl).symm k) = ix2 p k := funext fun a => Fin.ext (by
    match a with
    | ⟨0, _⟩ => exact lhs_rows32_0 _ _
    | ⟨1, _⟩ => exact (lhs_rows32_1 _ _).trans hk)
  have er : dot_S5000x32_S32x32_S5000x32_1_0_0_1_n_n.rhsIdx (ix2 p q) ((ValueIdx.contrEquiv1 dot_S5000x32_S32x32_S5000x32_1_0_0_1_n_n 32 rfl rfl).symm k) = ix2 k q := funext fun a => Fin.ext (by
    match a with
    | ⟨0, _⟩ => exact (rhs_rows32_0 _ _).trans hk
    | ⟨1, _⟩ => exact rhs_rows32_1 _ _)
  rw [el, er]

/-! ## A block of rows times the [32,40] output projection, entry by entry -/

/-- Along the rows' axis the left operand is read at the output's row. -/
theorem lhs_proj_0 (i : S5000x40.Idx) (s : dot_S5000x32_S32x40_S5000x40_1_0_0_1_n_n.contr.Idx) :
    (dot_S5000x32_S32x40_S5000x40_1_0_0_1_n_n.lhsIdx i s 0).val = (i 0).val := by
  unfold DotDims.lhsIdx
  rw [dif_neg (show ¬(0 : Fin S5000x32.rank) ∈ dot_S5000x32_S32x40_S5000x40_1_0_0_1_n_n.lhsBatch by decide), dif_pos (show (0 : Fin S5000x32.rank) ∈ dot_S5000x32_S32x40_S5000x40_1_0_0_1_n_n.lhsNonContracting by decide)]
  rfl
/-- Along the features' axis it is read at the summation index. -/
theorem lhs_proj_1 (i : S5000x40.Idx) (s : dot_S5000x32_S32x40_S5000x40_1_0_0_1_n_n.contr.Idx) :
    (dot_S5000x32_S32x40_S5000x40_1_0_0_1_n_n.lhsIdx i s 1).val = (s ⟨0, by decide⟩).val :=
  dot_S5000x32_S32x40_S5000x40_1_0_0_1_n_n.lhsIdx_val_of_single rfl i s
/-- The projection matrix is read at the summation index along its first axis … -/
theorem rhs_proj_0 (i : S5000x40.Idx) (s : dot_S5000x32_S32x40_S5000x40_1_0_0_1_n_n.contr.Idx) :
    (dot_S5000x32_S32x40_S5000x40_1_0_0_1_n_n.rhsIdx i s 0).val = (s ⟨0, by decide⟩).val :=
  dot_S5000x32_S32x40_S5000x40_1_0_0_1_n_n.rhsIdx_val_of_single rfl i s
/-- … and at the output's column along its second. -/
theorem rhs_proj_1 (i : S5000x40.Idx) (s : dot_S5000x32_S32x40_S5000x40_1_0_0_1_n_n.contr.Idx) :
    (dot_S5000x32_S32x40_S5000x40_1_0_0_1_n_n.rhsIdx i s 1).val = (i 1).val := by
  unfold DotDims.rhsIdx
  rw [dif_neg (show ¬(1 : Fin S32x40.rank) ∈ dot_S5000x32_S32x40_S5000x40_1_0_0_1_n_n.rhsBatch by decide), dif_pos (show (1 : Fin S32x40.rank) ∈ dot_S5000x32_S32x40_S5000x40_1_0_0_1_n_n.rhsNonContracting by decide)]
  rfl

/-- Entry `(p, d)` of a [5000,32] block times the [32,40] matrix, accumulated from zero, is `Σ_j X[p,j]·W[j,d]`. -/
theorem rows32_proj_apply {φ₁ φ₂ : FTy} (X : FVec Ideal S5000x32 φ₁) (W : FVec Ideal S32x40 φ₂) (p : Fin 5000) (d : Fin 40) :
    matmul dot_S5000x32_S32x40_S5000x40_1_0_0_1_n_n none X W (constant (F := Ideal) S5000x40 .f32 0x00000000#32) (ix2 p d)
      = ∑ j : Fin 32, X (ix2 p j) * W (ix2 j d) := by
  simp only [matmul]
  rw [Ideal.matmul_constant_zero_apply, ← Equiv.sum_comp (ValueIdx.contrEquiv1 dot_S5000x32_S32x40_S5000x40_1_0_0_1_n_n 32 rfl rfl).symm]
  refine Finset.sum_congr rfl fun j _ => ?_
  have hj := ValueIdx.contrEquiv1_symm_val dot_S5000x32_S32x40_S5000x40_1_0_0_1_n_n 32 rfl rfl j
  have el : dot_S5000x32_S32x40_S5000x40_1_0_0_1_n_n.lhsIdx (ix2 p d) ((ValueIdx.contrEquiv1 dot_S5000x32_S32x40_S5000x40_1_0_0_1_n_n 32 rfl rfl).symm j) = ix2 p j := funext fun a => Fin.ext (by
    match a with
    | ⟨0, _⟩ => exact lhs_proj_0 _ _
    | ⟨1, _⟩ => exact (lhs_proj_1 _ _).trans hj)
  have er : dot_S5000x32_S32x40_S5000x40_1_0_0_1_n_n.rhsIdx (ix2 p d) ((ValueIdx.contrEquiv1 dot_S5000x32_S32x40_S5000x40_1_0_0_1_n_n 32 rfl rfl).symm j) = ix2 j d := funext fun a => Fin.ext (by
    match a with
    | ⟨0, _⟩ => exact (rhs_proj_0 _ _).trans hj
    | ⟨1, _⟩ => exact rhs_proj_1 _ _)
  rw [el, er]

/-! ## The body's value on one block of rows is the projected layer on that block -/

/-- On a block of 5000 rows the body computes the last layer of that block followed by the output projection: the
    format changes are the identity on the extended reals, the layer's two products are sums over the 32 input
    features, the bias row is repeated down the rows, the positive part is the maximum with zero, and the projection
    is a sum over the layer's 32 output features. -/
theorem body1_eq_head (v0 v3 : Vec Ideal S5000x32 .f32) (v6 v8 : Vec Ideal S32x32 .f32) (v13 : Vec Ideal S1x32 .f32) (v20 : Vec Ideal S32x40 .f32) :
    k1_pay1 (F := Ideal) v0 v3 v6 v8 v13 v20 = Cert.Sage.head v0 v3 v6 v8 v13 v20 := by
  funext i
  obtain ⟨p, d, rfl⟩ : ∃ (p : Fin 5000) (d : Fin 40), i = ix2 p d := ⟨i 0, i 1, eq_ix2 i⟩
  unfold k1_pay1 Cert.Sage.head Cert.Sage.denseAt
  simp only [shapeCast_self]
  rw [rows32_proj_apply]
  refine Finset.sum_congr rfl fun j _ => ?_
  rw [truncf_apply, truncf_apply, maximumf_apply, addf_apply, addf_apply, rows32_mul_apply, rows32_mul_apply, broadcastTo_1b_ab_apply, broadcast_apply]
  have hzero : (FloatOps.ofBits (F := Ideal) FTy.f32 0x00000000#32) = (0 : EReal) := Ideal.ofBits_zero_f32
  rw [hzero]
  rfl

/-! ## From the blocks of rows to the whole array -/

/-- The zero offsets of a whole-block access. -/
theorem zero_offsets1 : (![0, 0] : Fin 2 → Nat) = fun _ => 0 := funext fun a => by fin_cases a <;> rfl

/-- Where each window's block sits at grid point `t`: the two feature arrays and the output move down the rows with
    the point, 5000 rows at a time; the two weight matrices, the bias row and the projection are taken whole at every
    point. -/
theorem block_positions1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What grid point `t` writes back is rows `5000·t … 5000·t + 4999` of the projected layer of the whole arrays: an
    entry reads one row of the two feature arrays, and row `p` of the block at `t` is row `5000·t + p` of the array. -/
theorem written_block1 (V : (c : Dev nD) → (b : Ref sig .tc) → Buf (Elt Ideal) ((c : Thread nD τ).loc b)) (c : Dev nD) (t : Fin cfg1.N) :
    (dat1 (F := Ideal) V c).flushed 6 t = ((cfg1.win 6).blk t).view.read (Elt Ideal)
      (Cert.Sage.head (V c main_v39) (V c main_v26) (V c main_arg5) (V c main_arg7) (V c main_v40) (V c main_arg8)) := by
  show (cfg1.win 6).cut (grid1.coords t) ((dat1 (F := Ideal) V c).after 6 t) = _
  rw [after1_6]
  unfold out1_6
  rw [View.canon_unit_zero zero_offsets1]
  simp only [View.ld_unit_zero (S := S5000x32) zero_offsets1, View.ld_unit_zero (S := S32x32) zero_offsets1, View.ld_unit_zero (S := S1x32) zero_offsets1, View.ld_unit_zero (S := S32x40) zero_offsets1]
  rw [body1_eq_head]
  obtain ⟨e00, e01, e10, e11, e20, e21, e30, e31, e40, e41, e50, e51, e60, e61⟩ := block_positions1 t
  have ht : t.val < 20 := t.isLt
  funext i
  obtain ⟨p, d, rfl⟩ : ∃ (p : Fin 5000) (d : Fin 40), i = ix2 p d := ⟨i 0, i 1, eq_ix2 i⟩
  have hp : p.val < 5000 := p.isLt
  have hrow : ((cfg1.win 6).blk t).view.emb (ix2 p d) = ix2 (⟨t.val * 5000 + p.val, by omega⟩ : Fin 100000) d := by
    funext a; apply Fin.ext
    match a with
    | ⟨0, _⟩ => show win1_6.index t (0 : Fin 2) * 5000 + 1 * p.val = t.val * 5000 + p.val; omega
    | ⟨1, _⟩ => show win1_6.index t (1 : Fin 2) * 40 + 1 * d.val = d.val; omega
  show Cert.Sage.head (N := 5000) (iblk1 V c 0 t) (iblk1 V c 1 t) (iblk1 V c 2 t) (iblk1 V c 4 t) (iblk1 V c 3 t) (iblk1 V c 5 t) (ix2 p d)
    = Cert.Sage.head (N := 100000) (V c main_v39) (V c main_v26) (V c main_arg5) (V c main_arg7) (V c main_v40) (V c main_arg8) (((cfg1.win 6).blk t).view.emb (ix2 p d))
  rw [hrow]
  show (∑ j : Fin 32, Cert.Sage.denseAt (N := 5000) (iblk1 V c 0 t) (iblk1 V c 1 t) (iblk1 V c 2 t) (iblk1 V c 4 t) (iblk1 V c 3 t) p j * iblk1 V c 5 t (ix2 j d))
    = ∑ j : Fin 32, Cert.Sage.denseAt (N := 100000) (V c main_v39) (V c main_v26) (V c main_arg5) (V c main_arg7) (V c main_v40) ⟨t.val * 5000 + p.val, by omega⟩ j * V c main_arg8 (ix2 j d)
  refine Cert.Sage.head_entry_congr (fun k => ?_) (fun k => ?_) (fun k q => ?_) (fun k q => ?_) (fun q => ?_) (fun j => ?_)
  · show V c main_v39 (((cfg1.win 0).blk t).view.emb (ix2 p k)) = V c main_v39 (ix2 (⟨t.val * 5000 + p.val, by omega⟩ : Fin 100000) k)
    refine congrArg (V c main_v39) (funext fun a => Fin.ext ?_)
    match a with
    | ⟨0, _⟩ => show win1_0.index t (0 : Fin 2) * 5000 + 1 * p.val = t.val * 5000 + p.val; omega
    | ⟨1, _⟩ => show win1_0.index t (1 : Fin 2) * 32 + 1 * k.val = k.val; omega
  · show V c main_v26 (((cfg1.win 1).blk t).view.emb (ix2 p k)) = V c main_v26 (ix2 (⟨t.val * 5000 + p.val, by omega⟩ : Fin 100000) k)
    refine congrArg (V c main_v26) (funext fun a => Fin.ext ?_)
    match a with
    | ⟨0, _⟩ => show win1_1.index t (0 : Fin 2) * 5000 + 1 * p.val = t.val * 5000 + p.val; omega
    | ⟨1, _⟩ => show win1_1.index t (1 : Fin 2) * 32 + 1 * k.val = k.val; omega
  · show V c main_arg5 (((cfg1.win 2).blk t).view.emb (ix2 k q)) = V c main_arg5 (ix2 k q)
    refine congrArg (V c main_arg5) (funext fun a => Fin.ext ?_)
    match a with
    | ⟨0, _⟩ => show win1_2.index t (0 : Fin 2) * 32 + 1 * k.val = k.val; omega
    | ⟨1, _⟩ => show win1_2.index t (1 : Fin 2) * 32 + 1 * q.val = q.val; omega
  · show V c main_arg7 (((cfg1.win 4).blk t).view.emb (ix2 k q)) = V c main_arg7 (ix2 k q)
    refine congrArg (V c main_arg7) (funext fun a => Fin.ext ?_)
    match a with
    | ⟨0, _⟩ => show win1_4.index t (0 : Fin 2) * 32 + 1 * k.val = k.val; omega
    | ⟨1, _⟩ => show win1_4.index t (1 : Fin 2) * 32 + 1 * q.val = q.val; omega
  · show V c main_v40 (((cfg1.win 3).blk t).view.emb (ix2 (0 : Fin 1) q)) = V c main_v40 (ix2 (0 : Fin 1) q)
    refine congrArg (V c main_v40) (funext fun a => Fin.ext ?_)
    match a with
    | ⟨0, _⟩ => show win1_3.index t (0 : Fin 2) * 1 + 1 * 0 = 0; omega
    | ⟨1, _⟩ => show win1_3.index t (1 : Fin 2) * 32 + 1 * q.val = q.val; omega
  · show V c main_arg8 (((cfg1.win 5).blk t).view.emb (ix2 j d)) = V c main_arg8 (ix2 j d)
    refine congrArg (V c main_arg8) (funext fun a => Fin.ext ?_)
    match a with
    | ⟨0, _⟩ => show win1_5.index t (0 : Fin 2) * 32 + 1 * j.val = j.val; omega
    | ⟨1, _⟩ => show win1_5.index t (1 : Fin 2) * 40 + 1 * d.val = d.val; omega

/-- An entry of the output array lies in the block of point `t` exactly when each coordinate lies in the block's range. -/
theorem mem_block1 (t : Fin cfg1.N) (i : S100000x40.Idx) :
    i ∈ ((cfg1.win 6).blk t).view.set ↔ ∀ a : Fin 2, win1_6.index t a * S5000x40.size a ≤ (i a).val ∧ (i a).val < win1_6.index t a * S5000x40.size a + S5000x40.size a := by
  show i ∈ ((View.whole main_v41).slice (win1_6.rect t)).set ↔ _
  rw [View.set_slice_whole, Rect.mem_set_unit]
  exact Iff.rfl

/-- Every entry of the output array is written: row `r` lies in the block of point `r / 5000`. -/
theorem rows_covered1 (i : S100000x40.Idx) :
    ∃ t : Fin cfg1.N, (cfg1.win 6).flush t = true ∧ i ∈ ((cfg1.win 6).blk t).view.set := by
  have hi0 : (i 0).val < 100000 := (i 0).isLt
  have hi1 : (i 1).val < 40 := (i 1).isLt
  obtain ⟨t, ht⟩ : ∃ t : Fin cfg1.N, t.val = (i 0).val / 5000 := ⟨⟨(i 0).val / 5000, by show _ < 20; omega⟩, rfl⟩
  obtain ⟨-, -, -, -, -, -, -, -, -, -, -, -, e60, e61⟩ := block_positions1 t
  refine ⟨t, flush1_6 t, ?_⟩
  rw [mem_block1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 40 ≤ (i 1).val ∧ (i 1).val < win1_6.index t (1 : Fin 2) * 40 + 40; omega

/-- After the twenty points the output array holds the projected last layer of the arrays the region was entered with. -/
theorem arr1 (V : (c : Dev nD) → (b : Ref sig .tc) → Buf (Elt Ideal) ((c : Thread nD τ).loc b)) (c : Dev nD) :
    (dat1 (F := Ideal) V c).arrAt 6 cfg1.N
      = Cert.Sage.head (V c main_v39) (V c main_v26) (V c main_arg5) (V c main_arg7) (V c main_v40) (V c main_arg8) :=
  (dat1 (F := Ideal) V c).arrAt_eq_of_cover 6 _ (fun t _ => written_block1 V c t) rows_covered1

end Cert.KernelIdeal.RegionValue

end
-- ==== Proof.RefLayers.lean ====
/-
  The reference's two layers are the specification's layers.

  Each layer of the reference computes, for a node `r` and an output feature `c`,
      max (((Σ_k A[r,k]·Wl[k,c]) + b[c]) + Σ_k H[r,k]·Wr[k,c]) 0,
  the bias vector `b` being spread over the rows before the second product is added, where the specification
  adds the bias row last. The two agree because addition of extended reals is commutative and associative
  (`Cert.Sage.denseAt_bias_first`). The aggregated features `A` enter only as an array read at `(r, k)`; how they
  are obtained from the graph plays no part here. The second layer is followed by a product with the output
  matrix, so its statement is a sum over the hidden features of the layer's entries.

  The bias is a vector of length 32 in the reference and one row `B` of shape [1,32] in the specification; the
  hypothesis `hB` says that `B`'s row is that vector.
-/
import proofs.«124305_j45423574122804_1_alg».proof.Proof.Gen.ReferenceIdeal.Read
import proofs.«124305_j45423574122804_1_alg».proof.Proof.Spec

noncomputable section

open scoped BigOperators

namespace Cert.ReferenceIdeal.Layers
open Idealize.ShloMosaic Idealize.ShloMosaic.TcCoe Idealize.SL.Sem Idealize.ShloMosaic.ValueIdx
open Cert.ReferenceIdeal Cert.ReferenceIdeal.Read

/-! ### The index maps of the reference's products, by coordinates

Each product reads its left factor at (row of the output, summation index) and its right factor at
(summation index, column of the output); the bias is read at the output's column. -/

theorem lidx25_eq (i : S100000x32.Idx) (k : Fin 64) : lidx_main_v25 i k = ix2 (n0 := 100000) (n1 := 64) (i 0) k :=
  funext fun a => Fin.ext (by match a with | ⟨0, _⟩ => rfl | ⟨1, _⟩ => rfl)

theorem ridx25_eq (i : S100000x32.Idx) (k : Fin 64) : ridx_main_v25 i k = ix2 (n0 := 64) (n1 := 32) k (i 1) :=
  funext fun a => Fin.ext (by match a with | ⟨0, _⟩ => rfl | ⟨1, _⟩ => rfl)

theorem lidx29_eq (i : S100000x32.Idx) (k : Fin 64) : lidx_main_v29 i k = ix2 (n0 := 100000) (n1 := 64) (i 0) k :=
  funext fun a => Fin.ext (by match a with | ⟨0, _⟩ => rfl | ⟨1, _⟩ => rfl)

theorem ridx29_eq (i : S100000x32.Idx) (k : Fin 64) : ridx_main_v29 i k = ix2 (n0 := 64) (n1 := 32) k (i 1) :=
  funext fun a => Fin.ext (by match a with | ⟨0, _⟩ => rfl | ⟨1, _⟩ => rfl)

theorem bidx0_eq (i : S100000x32.Idx) : idx_main_v26 (idx_main_v27 i) = ix1 (n := 32) (i 1) :=
  funext fun a => Fin.ext (by match a with | ⟨0, _⟩ => rfl)

theorem layer0 (x0 : (⟨S100000x64, .f32⟩ : BufTy).Contents (Elt Ideal)) (x1 : (⟨S2x1600000, .i32⟩ : BufTy).Contents (Elt Ideal))
    (x2 : (⟨S64x32, .f32⟩ : BufTy).Contents (Elt Ideal)) (x3 : (⟨S32, .f32⟩ : BufTy).Contents (Elt Ideal))
    (x4 : (⟨S64x32, .f32⟩ : BufTy).Contents (Elt Ideal)) (B : (⟨S1x32, .f32⟩ : BufTy).Contents (Elt Ideal))
    (hB : ∀ q : Fin 32, B (ix2 0 q) = x3 (ix1 q)) :
    val_main_v31 (F := Ideal) x0 x1 x2 x3 x4 = Cert.Sage.dense (val_main_v24 (F := Ideal) x0 x1) x0 x2 x4 B := by
  funext i
  rw [val_main_v31_apply, val_main_v30_apply, val_main_v28_apply, val_main_v25_apply, val_main_v27_apply,
    val_main_v26_apply, val_main_v29_apply, val_main_call0_v0_apply, val_main_call0_cst_apply]
  generalize val_main_v24 (F := Ideal) x0 x1 = A
  simp only [Ideal.addf_def, Ideal.maximumf_def, Ideal.ofBits_def, Ideal.ofBits_zero_f32,
    lidx25_eq, ridx25_eq, lidx29_eq, ridx29_eq, bidx0_eq]
  refine Eq.trans ?_ (Cert.Sage.denseAt_bias_first A x0 x2 x4 B (i 0) (i 1))
  rw [hB (i 1)]

/-! ### The second layer, entry by entry -/

theorem lidx45_eq (i : S100000x32.Idx) (k : Fin 32) : lidx_main_v45 i k = ix2 (n0 := 100000) (n1 := 32) (i 0) k :=
  funext fun a => Fin.ext (by match a with | ⟨0, _⟩ => rfl | ⟨1, _⟩ => rfl)

theorem ridx45_eq (i : S100000x32.Idx) (k : Fin 32) : ridx_main_v45 i k = ix2 (n0 := 32) (n1 := 32) k (i 1) :=
  funext fun a => Fin.ext (by match a with | ⟨0, _⟩ => rfl | ⟨1, _⟩ => rfl)

theorem lidx49_eq (i : S100000x32.Idx) (k : Fin 32) : lidx_main_v49 i k = ix2 (n0 := 100000) (n1 := 32) (i 0) k :=
  funext fun a => Fin.ext (by match a with | ⟨0, _⟩ => rfl | ⟨1, _⟩ => rfl)

theorem ridx49_eq (i : S100000x32.Idx) (k : Fin 32) : ridx_main_v49 i k = ix2 (n0 := 32) (n1 := 32) k (i 1) :=
  funext fun a => Fin.ext (by match a with | ⟨0, _⟩ => rfl | ⟨1, _⟩ => rfl)

theorem bidx1_eq (i : S100000x32.Idx) : idx_main_v46 (idx_main_v47 i) = ix1 (n := 32) (i 1) :=
  funext fun a => Fin.ext (by match a with | ⟨0, _⟩ => rfl)

theorem ridx52_eq (i : S100000x40.Idx) (k : Fin 32) : ridx_main_v52 i k = ix2 (n0 := 32) (n1 := 40) k (i 1) :=
  funext fun a => Fin.ext (by match a with | ⟨0, _⟩ => rfl | ⟨1, _⟩ => rfl)

/-- Entry `i` of the second layer before the projection: the same law as for the first layer, with the first
    layer's output in the place of the node features. -/
theorem layer1_entry (x0 : (⟨S100000x64, .f32⟩ : BufTy).Contents (Elt Ideal)) (x1 : (⟨S2x1600000, .i32⟩ : BufTy).Contents (Elt Ideal))
    (x2 : (⟨S64x32, .f32⟩ : BufTy).Contents (Elt Ideal)) (x3 : (⟨S32, .f32⟩ : BufTy).Contents (Elt Ideal))
    (x4 : (⟨S64x32, .f32⟩ : BufTy).Contents (Elt Ideal)) (x5 : (⟨S32x32, .f32⟩ : BufTy).Contents (Elt Ideal))
    (x6 : (⟨S32, .f32⟩ : BufTy).Contents (Elt Ideal)) (x7 : (⟨S32x32, .f32⟩ : BufTy).Contents (Elt Ideal))
    (B : (⟨S1x32, .f32⟩ : BufTy).Contents (Elt Ideal))
    (hB : ∀ q : Fin 32, B (ix2 0 q) = x6 (ix1 q)) (i : S100000x32.Idx) :
    val_main_v51 (F := Ideal) x0 x1 x2 x3 x4 x5 x6 x7 i
      = Cert.Sage.denseAt (val_main_v44 (F := Ideal) x0 x1 x2 x3 x4) (val_main_v31 (F := Ideal) x0 x1 x2 x3 x4) x5 x7 B (i 0) (i 1) := by
  rw [val_main_v51_apply, val_main_v50_apply, val_main_v48_apply, val_main_v45_apply, val_main_v47_apply,
    val_main_v46_apply, val_main_v49_apply, val_main_call1_v0_apply, val_main_call1_cst_apply]
  generalize val_main_v44 (F := Ideal) x0 x1 x2 x3 x4 = A
  generalize val_main_v31 (F := Ideal) x0 x1 x2 x3 x4 = H
  simp only [Ideal.addf_def, Ideal.maximumf_def, Ideal.ofBits_def, Ideal.ofBits_zero_f32,
    lidx45_eq, ridx45_eq, lidx49_eq, ridx49_eq, bidx1_eq]
  refine Eq.trans ?_ (Cert.Sage.denseAt_bias_first A H x5 x7 B (i 0) (i 1))
  rw [hB (i 1)]

theorem head1 (x0 : (⟨S100000x64, .f32⟩ : BufTy).Contents (Elt Ideal)) (x1 : (⟨S2x1600000, .i32⟩ : BufTy).Contents (Elt Ideal))
    (x2 : (⟨S64x32, .f32⟩ : BufTy).Contents (Elt Ideal)) (x3 : (⟨S32, .f32⟩ : BufTy).Contents (Elt Ideal))
    (x4 : (⟨S64x32, .f32⟩ : BufTy).Contents (Elt Ideal)) (x5 : (⟨S32x32, .f32⟩ : BufTy).Contents (Elt Ideal))
    (x6 : (⟨S32, .f32⟩ : BufTy).Contents (Elt Ideal)) (x7 : (⟨S32x32, .f32⟩ : BufTy).Contents (Elt Ideal))
    (x8 : (⟨S32x40, .f32⟩ : BufTy).Contents (Elt Ideal)) (B : (⟨S1x32, .f32⟩ : BufTy).Contents (Elt Ideal))
    (hB : ∀ q : Fin 32, B (ix2 0 q) = x6 (ix1 q)) :
    val_main_v52 (F := Ideal) x0 x1 x2 x3 x4 x5 x6 x7 x8
      = Cert.Sage.head (val_main_v44 (F := Ideal) x0 x1 x2 x3 x4) (val_main_v31 (F := Ideal) x0 x1 x2 x3 x4) x5 x7 B x8 := by
  funext i
  rw [val_main_v52_apply]
  unfold Cert.Sage.head
  refine Finset.sum_congr rfl fun k _ => ?_
  rw [layer1_entry x0 x1 x2 x3 x4 x5 x6 x7 B hB, ridx52_eq]
  rfl

end Cert.ReferenceIdeal.Layers

end
-- ==== Proof.KernelValue.lean ====
/-
  The kernel's result array as a function of its arguments.

  The program is: host operations (from the edge list: source indices, destination indices, inverse degrees; the
  neighbours' features gathered, summed per destination and scaled), a first region computing one layer block of
  rows by block of rows, host operations again (the same aggregation of the first layer's output), and a second
  region computing the second layer followed by the output projection. The buffer contents at the four boundaries
  are a fold from the launch memory; here the fold is read back, boundary by boundary:

    * a region's output array, after its write-backs, is the layer (or the projected layer) of the arrays the region
      was entered with, because its blocks of 5000 rows tile the 100000 rows;
    * a stretch of host operations is the reference's stage of the same operations: the kernel's program and the
      reference apply the same gather, sum and scaling to the same arrays, so those are compared as whole terms and
      never read at an index;
    * the reference's layer is the same layer with the bias added before the second product.

  Together: the result array is the reference's result stage of the kernel's own arguments (`result_eq`).
-/
import proofs.«124305_j45423574122804_1_alg».proof.Proof.Gen.KernelIdeal.Frame
import proofs.«124305_j45423574122804_1_alg».proof.Proof.Gen.ReferenceIdeal.Read
import proofs.«124305_j45423574122804_1_alg».proof.Proof.Spec
import proofs.«124305_j45423574122804_1_alg».proof.Proof.Region0Value
import proofs.«124305_j45423574122804_1_alg».proof.Proof.Region1Value
import proofs.«124305_j45423574122804_1_alg».proof.Proof.RefLayers
import Idealize.ShloMosaic.Lib.StableHlo.Run
import Idealize.ShloMosaic.Lib.Pipeline.Value
import Idealize.ShloMosaic.Lib.ValueLayout

set_option maxRecDepth 16384

noncomputable section

namespace Cert.KernelIdeal.FoldValue
open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## The first stretch of host operations, read back to the arguments -/

set_option maxHeartbeats 4000000 in
/-- The first region's aggregated input (the neighbours' features gathered, summed per destination node and scaled
    by the inverse degree) is the reference's stage of the same operations on the same arguments: the two programs
    apply the same host operations, which are compared as whole terms and never opened. -/
theorem agg1_eq (c : Dev nD) :
    V1 m ρ c main_v24 = Cert.ReferenceIdeal.Read.val_main_v24 (F := Ideal) (m ((c.tc : Thread nD τ).loc main_arg0)) (m ((c.tc : Thread nD τ).loc main_arg1)) := by
  show StableHlo.after hostOps0 (W0 m ρ c) (Proc.devRef .tc main_v24) = _
  after_results_simp
  rfl

/-- The first bias, reshaped to one row, reads at `(0, q)` the bias vector's entry `q`. -/
theorem bias1_row (c : Dev nD) (q : Fin 32) :
    V1 m ρ c main_v25 (ix2 0 q) = m ((c.tc : Thread nD τ).loc main_arg3) (ix1 q) := by
  show StableHlo.after hostOps0 (W0 m ρ c) (Proc.devRef .tc main_v25) (ix2 0 q) = _
  after_results
  exact shapeCast_a_1a_apply _ _ 0 q

/-- No host operation of the first stretch writes an argument. -/
theorem V1_arg0 (c : Dev nD) : V1 m ρ c main_arg0 = m ((c.tc : Thread nD τ).loc main_arg0) := by
  show StableHlo.after hostOps0 (W0 m ρ c) (Proc.devRef .tc main_arg0) = _
  after_results
theorem V1_arg2 (c : Dev nD) : V1 m ρ c main_arg2 = m ((c.tc : Thread nD τ).loc main_arg2) := by
  show StableHlo.after hostOps0 (W0 m ρ c) (Proc.devRef .tc main_arg2) = _
  after_results
theorem V1_arg4 (c : Dev nD) : V1 m ρ c main_arg4 = m ((c.tc : Thread nD τ).loc main_arg4) := by
  show StableHlo.after hostOps0 (W0 m ρ c) (Proc.devRef .tc main_arg4) = _
  after_results

/-- The source indices, the destination indices and the inverse degrees, computed once by the first stretch and
    not touched by the first region, are the reference's stages of the edge list. -/
theorem src_eq (c : Dev nD) :
    W2 m ρ c (Proc.devRef .tc main_v1) = Cert.ReferenceIdeal.Read.val_main_v1 (F := Ideal) (m ((c.tc : Thread nD τ).loc main_arg1)) := by
  rw [W2_of_ne m ρ c main_v1 (by decide)]
  show StableHlo.after hostOps0 (W0 m ρ c) (Proc.devRef .tc main_v1) = _
  after_results
  rfl
theorem dst_eq (c : Dev nD) :
    W2 m ρ c (Proc.devRef .tc main_v3) = Cert.ReferenceIdeal.Read.val_main_v3 (F := Ideal) (m ((c.tc : Thread nD τ).loc main_arg1)) := by
  rw [W2_of_ne m ρ c main_v3 (by decide)]
  show StableHlo.after hostOps0 (W0 m ρ c) (Proc.devRef .tc main_v3) = _
  after_results
  rfl
set_option maxHeartbeats 4000000 in
theorem invdeg_eq (c : Dev nD) :
    W2 m ρ c (Proc.devRef .tc main_v11) = Cert.ReferenceIdeal.Read.val_main_v11 (F := Ideal) (m ((c.tc : Thread nD τ).loc main_arg1)) := by
  rw [W2_of_ne m ρ c main_v11 (by decide)]
  show StableHlo.after hostOps0 (W0 m ρ c) (Proc.devRef .tc main_v11) = _
  after_results_simp
  rfl

/-! ## The first region's output -/

/-- What the first region leaves in its output array is the reference's first hidden layer: the region's blocks
    tile the array with the layer of the entry arrays, the entry arrays are the reference's (above), and the layer
    with the bias added after the second product is the reference's with the bias added before it. -/
theorem hidden1_eq (c : Dev nD) :
    W2 m ρ c (Proc.devRef .tc main_v26) = Cert.ReferenceIdeal.Read.val_main_v31 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (W2_arr m ρ c 5).trans ?_
  rw [Cert.KernelIdeal.RegionValue.arr0 (V1 m ρ) c, agg1_eq m ρ c, V1_arg0 m ρ c, V1_arg2 m ρ c, V1_arg4 m ρ c]
  exact (Cert.ReferenceIdeal.Layers.layer0 _ _ _ _ _ _ (bias1_row m ρ c)).symm

/-! ## The second stretch, read back -/

set_option maxHeartbeats 4000000 in
/-- The second region's aggregated input is the reference's second aggregate: the same gather, sum and scaling of the
    first hidden layer. -/
theorem agg2_eq (c : Dev nD) :
    V3 m ρ c main_v39 = Cert.ReferenceIdeal.Read.val_main_v44 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  show StableHlo.after hostOps1 (W2 m ρ c) (Proc.devRef .tc main_v39) = _
  after_results_simp
  rw [src_eq m ρ c, dst_eq m ρ c, invdeg_eq m ρ c, hidden1_eq m ρ c]
  rfl

/-- The second stretch does not write the first hidden layer. -/
theorem V3_hidden1 (c : Dev nD) : V3 m ρ c main_v26 = W2 m ρ c (Proc.devRef .tc main_v26) := by
  show StableHlo.after hostOps1 (W2 m ρ c) (Proc.devRef .tc main_v26) = _
  after_results

/-- The second bias as one row. -/
theorem bias2_row (c : Dev nD) (q : Fin 32) :
    V3 m ρ c main_v40 (ix2 0 q) = m ((c.tc : Thread nD τ).loc main_arg6) (ix1 q) := by
  show StableHlo.after hostOps1 (W2 m ρ c) (Proc.devRef .tc main_v40) (ix2 0 q) = _
  after_results
  refine (shapeCast_a_1a_apply _ _ 0 q).trans ?_
  refine congrFun ?_ (ix1 q)
  rw [W2_of_ne m ρ c main_arg6 (by decide)]
  show StableHlo.after hostOps0 (W0 m ρ c) (Proc.devRef .tc main_arg6) = _
  after_results

/-- The weights of the second layer reach the second region as launched. -/
theorem V3_arg5 (c : Dev nD) : V3 m ρ c main_arg5 = m ((c.tc : Thread nD τ).loc main_arg5) := by
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results
theorem V3_arg7 (c : Dev nD) : V3 m ρ c main_arg7 = m ((c.tc : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results
theorem V3_arg8 (c : Dev nD) : V3 m ρ c main_arg8 = m ((c.tc : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results

/-! ## The result -/

/-- THE RESULT ARRAY after the run is the reference's result stage of the kernel's own arguments. -/
theorem result_eq (c : Dev nD) :
    W4 m ρ c (Proc.devRef .tc main_v41) = Cert.ReferenceIdeal.Read.val_main_v52 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  refine (W4_arr m ρ c 6).trans ?_
  rw [Cert.KernelIdeal.RegionValue.arr1 (V3 m ρ) c, agg2_eq m ρ c, V3_hidden1 m ρ c, hidden1_eq m ρ c, V3_arg5 m ρ c, V3_arg7 m ρ c, V3_arg8 m ρ c]
  exact (Cert.ReferenceIdeal.Layers.head1 _ _ _ _ _ _ _ _ _ _ (bias2_row m ρ c)).symm

end Cert.KernelIdeal.FoldValue

end
-- ==== Proof.lean ====
/-
  The certificate of a two-layer GraphSAGE kernel against its jnp reference, over the extended reals.

  Both programs compute, from node features `x`, an edge list and the layers' weights,
      h1  = relu (mean_agg x  · W1l + x  · W1r + b1)
      h2  = relu (mean_agg h1 · W2l + h1 · W2r + b2)
      out = h2 · w
  where `mean_agg h` gathers the rows of `h` at the edges' sources, sums them per destination node and scales by
  the inverse in-degree. The kernel leaves the aggregation to the host and computes each layer in a region of 20
  blocks of 5000 rows (its casts to a shorter float format are the identity on exact values); it adds the bias
  after both products where the reference adds it between them. Addition of extended reals being commutative
  and associative, the two results are equal entry by entry, for every input: the finiteness of the inputs is
  not used.

  The three frames are the generated ones (the reference's is its generated run with the result dropped);
  the idealization rewrote nothing, so `preserves` is trivial; `algebraic` puts the kernel's run, with its result
  array read back to the arguments (Proof/KernelRun.lean, Proof/KernelValue.lean), beside the reference's run.
-/
import proofs.«124305_j45423574122804_1_alg».proof.Defs
import proofs.«124305_j45423574122804_1_alg».proof.Proof.Gen.Kernel
import proofs.«124305_j45423574122804_1_alg».proof.Proof.Gen.Kernel.Skeleton
import proofs.«124305_j45423574122804_1_alg».proof.Proof.Gen.Kernel.Launch
import proofs.«124305_j45423574122804_1_alg».proof.Proof.Gen.Kernel.Points
import proofs.«124305_j45423574122804_1_alg».proof.Proof.Gen.Kernel.Frame
import proofs.«124305_j45423574122804_1_alg».proof.Proof.Gen.KernelIdeal
import proofs.«124305_j45423574122804_1_alg».proof.Proof.Gen.KernelIdeal.Skeleton
import proofs.«124305_j45423574122804_1_alg».proof.Proof.Gen.KernelIdeal.Launch
import proofs.«124305_j45423574122804_1_alg».proof.Proof.Gen.KernelIdeal.Points
import proofs.«124305_j45423574122804_1_alg».proof.Proof.Gen.KernelIdeal.Frame
import proofs.«124305_j45423574122804_1_alg».proof.Proof.Gen.ReferenceIdeal
import proofs.«124305_j45423574122804_1_alg».proof.Proof.Gen.ReferenceIdeal.Run
import proofs.«124305_j45423574122804_1_alg».proof.Proof.Gen.ReferenceIdeal.Read
import proofs.«124305_j45423574122804_1_alg».proof.Proof.Gen.Pre_finite_inputs
import proofs.«124305_j45423574122804_1_alg».proof.Proof.KernelRun
import proofs.«124305_j45423574122804_1_alg».proof.Proof.KernelValue
import Idealize.ShloMosaic.Adequacy
import Idealize.ShloMosaic.Init

noncomputable section

namespace Cert.Proof

open Idealize.ShloMosaic Idealize.SL.Sem

/-- The printed kernel runs and leaves its arguments as launched. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference is host operations only: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs, from memories that agree on the arguments, end with the same result array: the reference's
    result stage of the arguments. The kernel's side is its run with the result array read back
    (`FoldValue.result_eq`); the reference's side is its run, the arguments' agreement rewritten. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.FoldValue.result_eq m ρ c), (h c).2⟩)
      (Cert.KernelIdeal.NamedRun.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v52_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
